-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S128x1024 : Shape := ⟨2, ![128, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x1024, .f32⟩
  | .hbm, ⟨8, _⟩ => ⟨S4x1024x1024, .bf16⟩
  | .hbm, ⟨9, _⟩ => ⟨S4x1024x1024, .f32⟩
  | .hbm, ⟨10, _⟩ => ⟨S4x1024x1024, .bf16⟩
  | .hbm, ⟨11, _⟩ => ⟨S16384x1024, .f32⟩
  | .hbm, ⟨12, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S4x1024, .f32⟩
  | .local _ .vmem, ⟨9, _⟩ => ⟨S4x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4x1024x1024_S4x1024x1024_0_2_1 : S4x1024x1024.Transposes [0, 2, 1] S4x1024x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S128x1024 : S1x1024.Broadcasts S128x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S16384x1024.size a
  hwx0_7 : ∀ i : grid0.Coords, EltTy.bits .f32 = 32 ∨ (Rect.block (s := S16384x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S16384x1024.size a
  hwx0_8 : ∀ i : grid0.Coords, EltTy.bits .f32 = 32 ∨ (Rect.block (s := S16384x1024) S128x1024.size (cc0_transform_8 i) (hinb0_8 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S16384x4x1024 : Shape := ⟨3, ![16384, 4, 1024]⟩
abbrev S1x4x1024 : Shape := ⟨3, ![1, 4, 1024]⟩
abbrev S16384x1x1024 : Shape := ⟨3, ![16384, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S16384x4x1024, .f32⟩
  | .hbm, ⟨8, _⟩ => ⟨S1x4x1024, .f32⟩
  | .hbm, ⟨9, _⟩ => ⟨S16384x4x1024, .f32⟩
  | .hbm, ⟨10, _⟩ => ⟨S16384x4x1024, .f32⟩
  | .hbm, ⟨11, _⟩ => ⟨S16384x4x1024, .f32⟩
  | .hbm, ⟨12, _⟩ => ⟨S1x4x1024, .f32⟩
  | .hbm, ⟨13, _⟩ => ⟨S16384x4x1024, .f32⟩
  | .hbm, ⟨14, _⟩ => ⟨S16384x4x1024, .f32⟩
  | .hbm, ⟨15, _⟩ => ⟨S16384x4x1024, .f32⟩
  | .hbm, ⟨16, _⟩ => ⟨S16384x1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1x1024, .f32⟩
  | .hbm, ⟨37, _⟩ => ⟨S16384x1024, .f32⟩
  | .hbm, ⟨38, _⟩ => ⟨S16384x1024, .f32⟩
  | .hbm, ⟨39, _⟩ => ⟨S16384x1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  slices_S16384x4x1024_S16384x1x1024_0_0_0 : S16384x4x1024.Slices ![0, 0, 0] S16384x1x1024
  shapeCasts_S16384x1x1024_S16384x1024 : S16384x1x1024.ShapeCasts S16384x1024
  bcast_S_S16384x1024 : S_.BroadcastsInDim S16384x1024 (![] : Fin 0 → Fin S16384x1024.rank)
  slices_S16384x4x1024_S16384x1x1024_0_1_0 : S16384x4x1024.Slices ![0, 1, 0] S16384x1x1024
  slices_S16384x4x1024_S16384x1x1024_0_2_0 : S16384x4x1024.Slices ![0, 2, 0] S16384x1x1024
  slices_S16384x4x1024_S16384x1x1024_0_3_0 : S16384x4x1024.Slices ![0, 3, 0] S16384x1x1024
  dot_S16384x1024_S4x1024x1024_S16384x4x1024_1_2_0_01_n_n_wf : DotDims.WF S16384x1024 S4x1024x1024 S16384x4x1024 [1] [2] [0] [0, 1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf

class Facts : Prop extends Facts₀ where

variable [Facts]
-- ==== Proof.LstmStep.lean ====
/-
  One step of an LSTM cell over the extended reals, as ONE function of its seven argument arrays, read
  index by index: the activations `x` (input), `h` (previous hidden state) and `c` (previous cell state), each
  batch × 1024; the two weight stacks `Wi`, `Wh`, gate × output unit × input unit; the two bias stacks `bi`,
  `bh`, gate × output unit. Gate order: input, forget, candidate, output.

  For gate `g`, batch row `b` and unit `j` the pre-activation is
      (∑ₖ x[b,k]·Wi[g,j,k] + ∑ₖ h[b,k]·Wh[g,j,k]) + (bi[g,j] + bh[g,j]),
  the two products first and the two biases after them. With σ the logistic function,
      cell'[b,j]   = σ(pre 1)·c[b,j] + σ(pre 0)·tanh(pre 2),
      hidden'[b,j] = σ(pre 3)·tanh(cell'[b,j]).

  Two laws relate this to other spellings of the same step. Adding each bias to its own product and then the
  two sums, (A + p) + (B + q), is the same extended real as (A + B) + (p + q): addition on the extended reals
  is commutative and associative at the infinities too, so no finiteness is asked. And σ(z) IS the quotient
  1 / (1 + e^(−z)), with the conventions at ±∞ that the quotient and the exponential already carry.
-/
import Idealize.ShloMosaic.PureOps.Ideal
import Idealize.ShloMosaic.Lib.ValueIdx

noncomputable section

namespace Cert.LstmStep

open Idealize.ShloMosaic Idealize.ShloMosaic.ValueIdx

/-- Batch × unit: the three activation arrays and the two results. -/
abbrev Act : Shape := ⟨2, ![16384, 1024]⟩
/-- Gate × output unit × input unit: a weight stack. -/
abbrev Wts : Shape := ⟨3, ![4, 1024, 1024]⟩
/-- Gate × output unit: a bias stack. -/
abbrev Bias : Shape := ⟨2, ![4, 1024]⟩

/-- Row `b` of an activation array against row `j` of gate `g`'s weight matrix: the sum over the 1024 input units. -/
def rowDot (a : Act.Idx → EReal) (W : Wts.Idx → EReal) (g : Fin 4) (b : Fin 16384) (j : Fin 1024) : EReal :=
  ∑ k : Fin 1024, a (ix2 b k) * W (ix3 g j k)

/-- Gate `g`'s pre-activation at batch row `b`, unit `j`: the two products, then the two biases. -/
def pre (x h : Act.Idx → EReal) (Wi Wh : Wts.Idx → EReal) (bi bh : Bias.Idx → EReal)
    (g : Fin 4) (b : Fin 16384) (j : Fin 1024) : EReal :=
  (rowDot x Wi g b j + rowDot h Wh g b j) + (bi (ix2 g j) + bh (ix2 g j))

/-- The new cell state: forget gate times the old cell state, plus input gate times candidate. -/
def cell (x h c : Act.Idx → EReal) (Wi Wh : Wts.Idx → EReal) (bi bh : Bias.Idx → EReal) : Act.Idx → EReal := fun i =>
  Ideal.logistic (pre x h Wi Wh bi bh 1 (i 0) (i 1)) * c i
    + Ideal.logistic (pre x h Wi Wh bi bh 0 (i 0) (i 1)) * Ideal.tanh (pre x h Wi Wh bi bh 2 (i 0) (i 1))

/-- The new hidden state: output gate times the hyperbolic tangent of the new cell state. -/
def hidden (x h c : Act.Idx → EReal) (Wi Wh : Wts.Idx → EReal) (bi bh : Bias.Idx → EReal) : Act.Idx → EReal := fun i =>
  Ideal.logistic (pre x h Wi Wh bi bh 3 (i 0) (i 1)) * Ideal.tanh (cell x h c Wi Wh bi bh i)

/-- Each bias added to its own product, then the two sums: the same extended real as the two products first
    and the two biases after. Commutativity and associativity only, which hold at the infinities. -/
theorem pre_of_biased_products (x h : Act.Idx → EReal) (Wi Wh : Wts.Idx → EReal) (bi bh : Bias.Idx → EReal)
    (g : Fin 4) (b : Fin 16384) (j : Fin 1024) :
    (rowDot x Wi g b j + bi (ix2 g j)) + (rowDot h Wh g b j + bh (ix2 g j)) = pre x h Wi Wh bi bh g b j :=
  add_add_add_comm _ _ _ _

/-- The logistic function is the quotient of one by one plus the exponential of the negated argument. -/
theorem logistic_as_quotient (z : EReal) : Ideal.div 1 (1 + Ideal.exp (-z)) = Ideal.logistic z := rfl

/-- The single-precision pattern of one denotes the real number one. -/
theorem one_f32 : Ideal.ofBits .f32 0x3F800000#32 = 1 := by
  simp [Ideal.ofBits, Ideal.ieee, -EReal.coe_mul]; norm_num

end Cert.LstmStep

end
-- ==== Proof.RefStep.lean ====
/-
  The reference's two results are the LSTM step of the specification. Its program forms, for all four gates at
  once, the product of the input with the input weights plus the input bias, the same for the hidden state, and
  adds the two; slices the gate axis; and spells each logistic function as one over one plus the exponential of
  the negated argument. Read one stage at a time at an index, the two batched products are the row sums of the
  specification, the grouping of the four summands differs from the specification's by commutativity and
  associativity only, and the spelled quotient is the logistic function.
-/
import proofs.«154425_j23974507446845_1_alg».proof.Proof.Gen.ReferenceIdeal.Read
import proofs.«154425_j23974507446845_1_alg».proof.Proof.LstmStep

noncomputable section

namespace Cert.ReferenceIdeal.StepValue

open Cert.ReferenceIdeal Cert.ReferenceIdeal.Gen Cert.ReferenceIdeal.Read
open Idealize.ShloMosaic Idealize.ShloMosaic.TcCoe Idealize.ShloMosaic.ValueIdx Cert.LstmStep

variable (x0 x1 x2 : (⟨S16384x1024, .f32⟩ : BufTy).Contents (Elt Ideal))
  (x3 x4 : (⟨S4x1024x1024, .f32⟩ : BufTy).Contents (Elt Ideal)) (x5 x6 : (⟨S4x1024, .f32⟩ : BufTy).Contents (Elt Ideal))

/-- All four gates before slicing, at batch row `b`, gate `g`, unit `j`: each product with its own bias, the two
    sums added — which is the specification's pre-activation regrouped. -/
theorem all_gates_at (b : Fin 16384) (g : Fin 4) (j : Fin 1024) :
    val_main_v8 (F := Ideal) x0 x1 x3 x4 x5 x6 (ix3 b g j) = pre x0 x1 x3 x4 x5 x6 g b j := by
  rw [val_main_v8_apply, val_main_v3_apply, val_main_v7_apply, val_main_v0_apply, val_main_v4_apply,
    val_main_v2_apply, val_main_v1_apply, val_main_v6_apply, val_main_v5_apply, ← pre_of_biased_products]
  have row0 : ∀ k, lidx_main_v0 (ix3 b g j) k = ix2 b k := fun k => funext fun a => by
    match a with | ⟨0, _⟩ => rfl | ⟨1, _⟩ => rfl
  have col0 : ∀ k, ridx_main_v0 (ix3 b g j) k = ix3 g j k := fun k => funext fun a => by
    match a with | ⟨0, _⟩ => rfl | ⟨1, _⟩ => rfl | ⟨2, _⟩ => rfl
  have row4 : ∀ k, lidx_main_v4 (ix3 b g j) k = ix2 b k := fun k => funext fun a => by
    match a with | ⟨0, _⟩ => rfl | ⟨1, _⟩ => rfl
  have col4 : ∀ k, ridx_main_v4 (ix3 b g j) k = ix3 g j k := fun k => funext fun a => by
    match a with | ⟨0, _⟩ => rfl | ⟨1, _⟩ => rfl | ⟨2, _⟩ => rfl
  have bias5 : idx_main_v1 (idx_main_v2 (ix3 b g j)) = ix2 g j := funext fun a => by
    match a with | ⟨0, _⟩ => rfl | ⟨1, _⟩ => rfl
  have bias6 : idx_main_v5 (idx_main_v6 (ix3 b g j)) = ix2 g j := funext fun a => by
    match a with | ⟨0, _⟩ => rfl | ⟨1, _⟩ => rfl
  simp only [row0, col0, row4, col4, bias5, bias6]
  rfl

/-- Slice `0` of the gate axis, the unit axis of extent one dropped: gate 0's pre-activation. -/
theorem gate0_at (b : Fin 16384) (j : Fin 1024) :
    val_main_v10 (F := Ideal) x0 x1 x3 x4 x5 x6 (ix2 b j) = pre x0 x1 x3 x4 x5 x6 0 b j := by
  rw [val_main_v10_apply, val_main_v9_apply]
  have e : idx_main_v9 (idx_main_v10 (ix2 b j)) = ix3 b (0 : Fin 4) j := by
    have hj : j.val < 1024 := j.isLt
    funext a; apply Fin.ext
    match a with
    | ⟨0, _⟩ => show (b.val * 1024 + j.val) / 1024 = b.val; omega
    | ⟨1, _⟩ => rfl
    | ⟨2, _⟩ => show (b.val * 1024 + j.val) % 1024 = j.val; omega
  rw [e]
  exact all_gates_at x0 x1 x3 x4 x5 x6 b 0 j

/-- Slice `1` of the gate axis, the unit axis of extent one dropped: gate 1's pre-activation. -/
theorem gate1_at (b : Fin 16384) (j : Fin 1024) :
    val_main_v18 (F := Ideal) x0 x1 x3 x4 x5 x6 (ix2 b j) = pre x0 x1 x3 x4 x5 x6 1 b j := by
  rw [val_main_v18_apply, val_main_v17_apply]
  have e : idx_main_v17 (idx_main_v18 (ix2 b j)) = ix3 b (1 : Fin 4) j := by
    have hj : j.val < 1024 := j.isLt
    funext a; apply Fin.ext
    match a with
    | ⟨0, _⟩ => show (b.val * 1024 + j.val) / 1024 = b.val; omega
    | ⟨1, _⟩ => rfl
    | ⟨2, _⟩ => show (b.val * 1024 + j.val) % 1024 = j.val; omega
  rw [e]
  exact all_gates_at x0 x1 x3 x4 x5 x6 b 1 j

/-- Slice `2` of the gate axis, the unit axis of extent one dropped: gate 2's pre-activation. -/
theorem gate2_at (b : Fin 16384) (j : Fin 1024) :
    val_main_v26 (F := Ideal) x0 x1 x3 x4 x5 x6 (ix2 b j) = pre x0 x1 x3 x4 x5 x6 2 b j := by
  rw [val_main_v26_apply, val_main_v25_apply]
  have e : idx_main_v25 (idx_main_v26 (ix2 b j)) = ix3 b (2 : Fin 4) j := by
    have hj : j.val < 1024 := j.isLt
    funext a; apply Fin.ext
    match a with
    | ⟨0, _⟩ => show (b.val * 1024 + j.val) / 1024 = b.val; omega
    | ⟨1, _⟩ => rfl
    | ⟨2, _⟩ => show (b.val * 1024 + j.val) % 1024 = j.val; omega
  rw [e]
  exact all_gates_at x0 x1 x3 x4 x5 x6 b 2 j

/-- Slice `3` of the gate axis, the unit axis of extent one dropped: gate 3's pre-activation. -/
theorem gate3_at (b : Fin 16384) (j : Fin 1024) :
    val_main_v29 (F := Ideal) x0 x1 x3 x4 x5 x6 (ix2 b j) = pre x0 x1 x3 x4 x5 x6 3 b j := by
  rw [val_main_v29_apply, val_main_v28_apply]
  have e : idx_main_v28 (idx_main_v29 (ix2 b j)) = ix3 b (3 : Fin 4) j := by
    have hj : j.val < 1024 := j.isLt
    funext a; apply Fin.ext
    match a with
    | ⟨0, _⟩ => show (b.val * 1024 + j.val) / 1024 = b.val; omega
    | ⟨1, _⟩ => rfl
    | ⟨2, _⟩ => show (b.val * 1024 + j.val) % 1024 = j.val; omega
  rw [e]
  exact all_gates_at x0 x1 x3 x4 x5 x6 b 3 j

/-- One over one plus the exponential of the negated pre-activation: the logistic function of gate 0. -/
theorem sigmoid0_at (b : Fin 16384) (j : Fin 1024) :
    val_main_v16 (F := Ideal) x0 x1 x3 x4 x5 x6 (ix2 b j) = Ideal.logistic (pre x0 x1 x3 x4 x5 x6 0 b j) := by
  rw [val_main_v16_apply, val_main_v15_apply, val_main_cst_0_apply, val_main_v14_apply, val_main_v13_apply,
    val_main_cst_apply, val_main_v12_apply, val_main_v11_apply, gate0_at]
  show Ideal.div (Ideal.ofBits .f32 0x3F800000#32) (Ideal.ofBits .f32 0x3F800000#32 + Ideal.exp (-_)) = _
  rw [one_f32]
  exact logistic_as_quotient _

/-- One over one plus the exponential of the negated pre-activation: the logistic function of gate 1. -/
theorem sigmoid1_at (b : Fin 16384) (j : Fin 1024) :
    val_main_v24 (F := Ideal) x0 x1 x3 x4 x5 x6 (ix2 b j) = Ideal.logistic (pre x0 x1 x3 x4 x5 x6 1 b j) := by
  rw [val_main_v24_apply, val_main_v23_apply, val_main_cst_2_apply, val_main_v22_apply, val_main_v21_apply,
    val_main_cst_1_apply, val_main_v20_apply, val_main_v19_apply, gate1_at]
  show Ideal.div (Ideal.ofBits .f32 0x3F800000#32) (Ideal.ofBits .f32 0x3F800000#32 + Ideal.exp (-_)) = _
  rw [one_f32]
  exact logistic_as_quotient _

/-- One over one plus the exponential of the negated pre-activation: the logistic function of gate 3. -/
theorem sigmoid3_at (b : Fin 16384) (j : Fin 1024) :
    val_main_v35 (F := Ideal) x0 x1 x3 x4 x5 x6 (ix2 b j) = Ideal.logistic (pre x0 x1 x3 x4 x5 x6 3 b j) := by
  rw [val_main_v35_apply, val_main_v34_apply, val_main_cst_4_apply, val_main_v33_apply, val_main_v32_apply,
    val_main_cst_3_apply, val_main_v31_apply, val_main_v30_apply, gate3_at]
  show Ideal.div (Ideal.ofBits .f32 0x3F800000#32) (Ideal.ofBits .f32 0x3F800000#32 + Ideal.exp (-_)) = _
  rw [one_f32]
  exact logistic_as_quotient _

/-- The reference's first result at an index: the new cell state. -/
theorem cell_at (b : Fin 16384) (j : Fin 1024) :
    val_main_v38 (F := Ideal) x0 x1 x2 x3 x4 x5 x6 (ix2 b j) = cell x0 x1 x2 x3 x4 x5 x6 (ix2 b j) := by
  rw [val_main_v38_apply, val_main_v36_apply, val_main_v37_apply, val_main_v27_apply, sigmoid1_at, sigmoid0_at, gate2_at]
  rfl

/-- The reference's first result is the new cell state. -/
theorem cell_eq : val_main_v38 (F := Ideal) x0 x1 x2 x3 x4 x5 x6 = cell x0 x1 x2 x3 x4 x5 x6 := by
  funext i
  obtain ⟨b, j, rfl⟩ : ∃ (b : Fin 16384) (j : Fin 1024), i = ix2 b j := ⟨i 0, i 1, eq_ix2 i⟩
  exact cell_at x0 x1 x2 x3 x4 x5 x6 b j

/-- The reference's second result is the new hidden state. -/
theorem hidden_eq : val_main_v40 (F := Ideal) x0 x1 x2 x3 x4 x5 x6 = hidden x0 x1 x2 x3 x4 x5 x6 := by
  funext i
  obtain ⟨b, j, rfl⟩ : ∃ (b : Fin 16384) (j : Fin 1024), i = ix2 b j := ⟨i 0, i 1, eq_ix2 i⟩
  rw [val_main_v40_apply, val_main_v39_apply, sigmoid3_at, cell_at]
  rfl

end Cert.ReferenceIdeal.StepValue

end
-- ==== Proof.KernelTile.lean ====
/-
  What one grid step leaves in its two output tiles, at an index of the tile, as a function of what it was
  handed: a 128-row tile each of the input, the hidden state and the cell state, the two weight stacks already
  transposed to gate × input unit × output unit, and the two bias stacks.

  Each of the eight matrix products of the step multiplies a 128 × 1024 tile by one gate's 1024 × 1024 matrix
  into a zero accumulator, so at row `p`, column `q` it is the plain sum over the 1024 input units of tile[p,k]
  times matrix[k,q]; the narrowing of the tile to a shorter float format before the product changes nothing over
  the extended reals. The two biases of a gate are added to each other, broadcast down the 128 rows, and added
  to the sum of the gate's two products.
-/
import proofs.«154425_j23974507446845_1_alg».proof.Proof.Gen.KernelIdeal.Value
import proofs.«154425_j23974507446845_1_alg».proof.Proof.LstmStep
import Idealize.ShloMosaic.Lib.ValueIdx
import Idealize.ShloMosaic.Lib.Pipeline.Value
import Idealize.ShloMosaic.PureOps.Ideal.Laws

noncomputable section

namespace Cert.KernelIdeal.TileValue

open Cert.KernelIdeal Cert.KernelIdeal.Gen
open Idealize.ShloMosaic Idealize.ShloMosaic.TcCoe Idealize.ShloMosaic.ValueIdx

/-! ## A tile times one gate's matrix, at an index -/

/-- The left operand's row is the result's row. -/
theorem lhs_row (i : S128x1024.Idx) (s : dot_S128x1024_S1024x1024_S128x1024_1_0_0_1_n_n.contr.Idx) :
    (dot_S128x1024_S1024x1024_S128x1024_1_0_0_1_n_n.lhsIdx i s 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
/-- The left operand's column is the summation index. -/
theorem lhs_col (i : S128x1024.Idx) (s : dot_S128x1024_S1024x1024_S128x1024_1_0_0_1_n_n.contr.Idx) :
    (dot_S128x1024_S1024x1024_S128x1024_1_0_0_1_n_n.lhsIdx i s 1).val = (s ⟨0, by decide⟩).val :=
  dot_S128x1024_S1024x1024_S128x1024_1_0_0_1_n_n.lhsIdx_val_of_single rfl i s
/-- The right operand's row is the summation index. -/
theorem rhs_row (i : S128x1024.Idx) (s : dot_S128x1024_S1024x1024_S128x1024_1_0_0_1_n_n.contr.Idx) :
    (dot_S128x1024_S1024x1024_S128x1024_1_0_0_1_n_n.rhsIdx i s 0).val = (s ⟨0, by decide⟩).val :=
  dot_S128x1024_S1024x1024_S128x1024_1_0_0_1_n_n.rhsIdx_val_of_single rfl i s
/-- The right operand's column is the result's column. -/
theorem rhs_col (i : S128x1024.Idx) (s : dot_S128x1024_S1024x1024_S128x1024_1_0_0_1_n_n.contr.Idx) :
    (dot_S128x1024_S1024x1024_S128x1024_1_0_0_1_n_n.rhsIdx i s 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- A 128 × 1024 tile times a 1024 × 1024 matrix that was loaded with a leading axis of extent one, into the zero
    accumulator: at row `p`, column `q`, the sum over `k` of tile[p,k] · matrix[0,k,q]. -/
theorem tile_product_at {φ : FTy} (a : FVec Ideal S128x1024 φ) (W : Vec Ideal S1x1024x1024 .bf16) (p : Fin 128) (q : Fin 1024) :
    matmul dot_S128x1024_S1024x1024_S128x1024_1_0_0_1_n_n none a (shapeCast S1024x1024 W shapeCasts_S1x1024x1024_S1024x1024 : FVec Ideal S1024x1024 .bf16) (constant S128x1024 .f32 0x00000000#32) (ix2 p q)
      = ∑ k : Fin 1024, a (ix2 p k) * W (ix3 (0 : Fin 1) k q) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k := funext fun a => Fin.ext (by
    match a with
    | ⟨0, _⟩ => exact lhs_row _ _
    | ⟨1, _⟩ => exact (lhs_col _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q := funext fun a => Fin.ext (by
    match a with
    | ⟨0, _⟩ => exact (rhs_row _ _).trans hk
    | ⟨1, _⟩ => exact rhs_col _ _)
  rw [el, er]
  refine congrArg (a (ix2 p k) * ·) ?_
  exact shapeCast_apply W shapeCasts_S1x1024x1024_S1024x1024 (ix2 k q) (ix3 (0 : Fin 1) k q)
    (by rw [Shape.rowMajor_val_three, Shape.rowMajor_val_two]; show (0 * 1024 + k.val) * 1024 + q.val = k.val * 1024 + q.val; omega)

/-! ## The step's payloads at an index -/

/-- The input tile, narrowed (the identity over the extended reals), times a gate's input matrix. -/
theorem pay6_at (x : Vec Ideal S128x1024 .f32) (W : Vec Ideal S1x1024x1024 .bf16) (p : Fin 128) (q : Fin 1024) :
    k0_pay6 x W (ix2 p q) = ∑ k : Fin 1024, x (ix2 p k) * W (ix3 (0 : Fin 1) k q) := by
  unfold k0_pay6 k0_pay3
  exact tile_product_at _ W p q

/-- The hidden-state tile, narrowed, times a gate's hidden matrix. -/
theorem pay7_at (h : Vec Ideal S128x1024 .f32) (W : Vec Ideal S1x1024x1024 .bf16) (p : Fin 128) (q : Fin 1024) :
    k0_pay7 h W (ix2 p q) = ∑ k : Fin 1024, h (ix2 p k) * W (ix3 (0 : Fin 1) k q) := by
  unfold k0_pay7 k0_pay4
  exact tile_product_at _ W p q

/-- The same product of an already narrowed input tile. -/
theorem pay11_at (a : FVec Ideal S128x1024 .bf16) (W : Vec Ideal S1x1024x1024 .bf16) (p : Fin 128) (q : Fin 1024) :
    k0_pay11 a W (ix2 p q) = ∑ k : Fin 1024, a (ix2 p k) * W (ix3 (0 : Fin 1) k q) := by
  unfold k0_pay11
  exact tile_product_at a W p q

/-- The same product of an already narrowed hidden-state tile. -/
theorem pay12_at (a : FVec Ideal S128x1024 .bf16) (W : Vec Ideal S1x1024x1024 .bf16) (p : Fin 128) (q : Fin 1024) :
    k0_pay12 a W (ix2 p q) = ∑ k : Fin 1024, a (ix2 p k) * W (ix3 (0 : Fin 1) k q) := by
  unfold k0_pay12
  exact tile_product_at a W p q

/-- A bias row, flattened to a vector and given its unit row axis back, is itself. -/
theorem bias_row_at (r : Vec Ideal S1x1024 .f32) (q : Fin 1024) :
    shapeCast S1x1024 (shapeCast S1024 r shapeCasts_S1x1024_S1024) shapeCasts_S1024_S1x1024 (ix2 (0 : Fin 1) q) = r (ix2 (0 : Fin 1) q) := by
  refine (shapeCast_apply _ shapeCasts_S1024_S1x1024 (ix2 (0 : Fin 1) q) (ix1 q)
    (by rw [Shape.rowMajor_val_one, Shape.rowMajor_val_two]; show q.val = 0 * 1024 + q.val; omega)).trans ?_
  exact shapeCast_apply r shapeCasts_S1x1024_S1024 (ix1 q) (ix2 (0 : Fin 1) q)
    (by rw [Shape.rowMajor_val_two, Shape.rowMajor_val_one]; show 0 * 1024 + q.val = q.val; omega)

/-- A gate's two bias rows, added and broadcast down the 128 rows: at any row, column `q`, their sum at `q`. -/
theorem bias_sum_at (r s : Vec Ideal S1x1024 .f32) (p : Fin 128) (q : Fin 1024) :
    broadcastTo S128x1024 (addf (F := Ideal) (φ := .f32) (shapeCast S1x1024 (shapeCast S1024 r shapeCasts_S1x1024_S1024) shapeCasts_S1024_S1x1024)
      (shapeCast S1x1024 (shapeCast S1024 s shapeCasts_S1x1024_S1024) shapeCasts_S1024_S1x1024)) broadcasts_S1x1024_S128x1024 (ix2 p q)
      = r (ix2 (0 : Fin 1) q) + s (ix2 (0 : Fin 1) q) := by
  refine (broadcastTo_apply _ broadcasts_S1x1024_S128x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])).trans ?_
  exact congrArg₂ (· + ·) (bias_row_at r q) (bias_row_at s q)

/-- A gate's pre-activation over the pieces the step loaded for it: the two tiles, the gate's two matrices (each with
    a leading axis of extent one) and its two bias rows. -/
def pieceGate (x h : S128x1024.Idx → EReal) (U V : S1x1024x1024.Idx → EReal) (r s : S1x1024.Idx → EReal)
    (p : Fin 128) (q : Fin 1024) : EReal :=
  ((∑ k : Fin 1024, x (ix2 p k) * U (ix3 (0 : Fin 1) k q)) + (∑ k : Fin 1024, h (ix2 p k) * V (ix3 (0 : Fin 1) k q)))
    + (r (ix2 (0 : Fin 1) q) + s (ix2 (0 : Fin 1) q))

/-- The input gate's whole payload at an index. -/
theorem pay5_at (x h : Vec Ideal S128x1024 .f32) (U V : Vec Ideal S1x1024x1024 .bf16) (r s : Vec Ideal S1x1024 .f32)
    (p : Fin 128) (q : Fin 1024) : k0_pay5 x h U V r s (ix2 p q) = pieceGate x h U V r s p q := by
  unfold k0_pay5 k0_pay3 k0_pay4 pieceGate
  exact congrArg₂ (· + ·) (congrArg₂ (· + ·) (tile_product_at _ U p q) (tile_product_at _ V p q)) (bias_sum_at r s p q)

/-- The candidate gate's whole payload at an index, over tiles narrowed before it. -/
theorem pay10_at (a b : FVec Ideal S128x1024 .bf16) (U V : Vec Ideal S1x1024x1024 .bf16) (r s : Vec Ideal S1x1024 .f32)
    (p : Fin 128) (q : Fin 1024) : k0_pay10 a b U V r s (ix2 p q) = pieceGate a b U V r s p q := by
  unfold k0_pay10 pieceGate
  exact congrArg₂ (· + ·) (congrArg₂ (· + ·) (tile_product_at a U p q) (tile_product_at b V p q)) (bias_sum_at r s p q)

/-! ## The two output tiles over the loaded pieces -/

/-- A block index rebuilt from its own coordinates is itself. -/
theorem same_index (f : S128x1024.Idx → S128x1024.Idx) (hf : ∀ y a, (f y a).val = (y a).val) (p : Fin 128) (q : Fin 1024) :
    f (ix2 p q) = ix2 p q := funext fun a => Fin.ext (hf _ a)

/-- The index of a bias row under a block index: row zero, the block index's column. -/
theorem row_index (f : S128x1024.Idx → S1x1024.Idx) (h0 : ∀ y, (f y 0).val = 0) (h1 : ∀ y, (f y 1).val = (y 1).val)
    (p : Fin 128) (q : Fin 1024) : f (ix2 p q) = ix2 (0 : Fin 1) q :=
  funext fun a => Fin.ext (by match a with | ⟨0, _⟩ => exact h0 _ | ⟨1, _⟩ => exact h1 _)

/-- The cell-state tile at row `p`, column `q`, over the pieces: forget gate times old cell state plus input gate times
    candidate. -/
theorem E7_at (P0 : Vec Ideal S128x1024 .f32) (P1 : Vec Ideal S1x1024x1024 .bf16) (P2 : Vec Ideal S128x1024 .f32) (P3 : Vec Ideal S1x1024x1024 .bf16) (P4 : Vec Ideal S1x1024 .f32) (P5 : Vec Ideal S1x1024 .f32) (P6 : Vec Ideal S128x1024 .f32) (P7 : Vec Ideal S1x1024x1024 .bf16) (P8 : Vec Ideal S1x1024x1024 .bf16) (P9 : Vec Ideal S1x1024 .f32) (P10 : Vec Ideal S1x1024 .f32) (P11 : Vec Ideal S1x1024x1024 .bf16) (P12 : Vec Ideal S1x1024x1024 .bf16) (P13 : Vec Ideal S1x1024 .f32) (P14 : Vec Ideal S1x1024 .f32)
    (p : Fin 128) (q : Fin 1024) :
    Value.E7 P0 P1 P2 P3 P4 P5 P6 P7 P8 P9 P10 P11 P12 P13 P14 (ix2 p q)
      = Ideal.logistic (pieceGate P0 P2 P1 P3 P4 P5 p q) * P6 (ix2 p q)
        + Ideal.logistic (pieceGate P0 P2 P7 P8 P9 P10 p q) * Ideal.tanh (pieceGate P0 P2 P11 P12 P13 P14 p q) := by
  have e0 : Value.ix7_0 (ix2 p q) = ix2 p q := same_index _ (fun y a => by match a with | ⟨0, _⟩ => rfl | ⟨1, _⟩ => rfl) p q
  have e1 : Value.ix7_1 (ix2 p q) = ix2 p q := same_index _ (fun y a => by match a with | ⟨0, _⟩ => rfl | ⟨1, _⟩ => rfl) p q
  have e2 : Value.ix7_2 (ix2 p q) = ix2 (0 : Fin 1) q := row_index _ (fun _ => rfl) (fun _ => rfl) p q
  have e3 : Value.ix7_3 (ix2 p q) = ix2 (0 : Fin 1) q := row_index _ (fun _ => rfl) (fun _ => rfl) p q
  have e4 : Value.ix7_4 (ix2 p q) = ix2 p q := same_index _ (fun y a => by match a with | ⟨0, _⟩ => rfl | ⟨1, _⟩ => rfl) p q
  have e5 : Value.ix7_5 (ix2 p q) = ix2 p q := same_index _ (fun y a => by match a with | ⟨0, _⟩ => rfl | ⟨1, _⟩ => rfl) p q
  have e6 : Value.ix7_6 (ix2 p q) = ix2 p q := same_index _ (fun y a => by match a with | ⟨0, _⟩ => rfl | ⟨1, _⟩ => rfl) p q
  unfold Value.E7
  rw [e0, e1, e2, e3, e4, e5, e6, pay6_at, pay7_at, pay5_at, pay10_at]
  rfl

/-- The hidden-state tile at row `p`, column `q`, over the pieces: output gate times the hyperbolic tangent of the
    cell-state value there. -/
theorem E8_at (P0 : Vec Ideal S128x1024 .f32) (P1 : Vec Ideal S1x1024x1024 .bf16) (P2 : Vec Ideal S128x1024 .f32) (P3 : Vec Ideal S1x1024x1024 .bf16) (P4 : Vec Ideal S1x1024 .f32) (P5 : Vec Ideal S1x1024 .f32) (P6 : Vec Ideal S1x1024x1024 .bf16) (P7 : Vec Ideal S1x1024x1024 .bf16) (P8 : Vec Ideal S1x1024 .f32) (P9 : Vec Ideal S1x1024 .f32) (P10 : Vec Ideal S128x1024 .f32) (P11 : Vec Ideal S1x1024x1024 .bf16) (P12 : Vec Ideal S1x1024x1024 .bf16) (P13 : Vec Ideal S1x1024 .f32) (P14 : Vec Ideal S1x1024 .f32) (P15 : Vec Ideal S1x1024x1024 .bf16) (P16 : Vec Ideal S1x1024x1024 .bf16) (P17 : Vec Ideal S1x1024 .f32) (P18 : Vec Ideal S1x1024 .f32)
    (p : Fin 128) (q : Fin 1024) :
    Value.E8 P0 P1 P2 P3 P4 P5 P6 P7 P8 P9 P10 P11 P12 P13 P14 P15 P16 P17 P18 (ix2 p q)
      = Ideal.logistic (pieceGate P0 P2 P1 P3 P4 P5 p q)
        * Ideal.tanh (Ideal.logistic (pieceGate P0 P2 P6 P7 P8 P9 p q) * P10 (ix2 p q)
          + Ideal.logistic (pieceGate P0 P2 P11 P12 P13 P14 p q) * Ideal.tanh (pieceGate P0 P2 P15 P16 P17 P18 p q)) := by
  have e0 : Value.ix8_0 (ix2 p q) = ix2 p q := same_index _ (fun y a => by match a with | ⟨0, _⟩ => rfl | ⟨1, _⟩ => rfl) p q
  have e1 : Value.ix8_1 (ix2 p q) = ix2 p q := same_index _ (fun y a => by match a with | ⟨0, _⟩ => rfl | ⟨1, _⟩ => rfl) p q
  have e2 : Value.ix8_2 (ix2 p q) = ix2 (0 : Fin 1) q := row_index _ (fun _ => rfl) (fun _ => rfl) p q
  have e3 : Value.ix8_3 (ix2 p q) = ix2 (0 : Fin 1) q := row_index _ (fun _ => rfl) (fun _ => rfl) p q
  have e4 : Value.ix8_4 (ix2 p q) = ix2 p q := same_index _ (fun y a => by match a with | ⟨0, _⟩ => rfl | ⟨1, _⟩ => rfl) p q
  have e5 : Value.ix8_5 (ix2 p q) = ix2 p q := same_index _ (fun y a => by match a with | ⟨0, _⟩ => rfl | ⟨1, _⟩ => rfl) p q
  have e6 : Value.ix8_6 (ix2 p q) = ix2 (0 : Fin 1) q := row_index _ (fun _ => rfl) (fun _ => rfl) p q
  have e7 : Value.ix8_7 (ix2 p q) = ix2 (0 : Fin 1) q := row_index _ (fun _ => rfl) (fun _ => rfl) p q
  have e8 : Value.ix8_8 (ix2 p q) = ix2 p q := same_index _ (fun y a => by match a with | ⟨0, _⟩ => rfl | ⟨1, _⟩ => rfl) p q
  have e9 : Value.ix8_9 (ix2 p q) = ix2 p q := same_index _ (fun y a => by match a with | ⟨0, _⟩ => rfl | ⟨1, _⟩ => rfl) p q
  have e10 : Value.ix8_10 (ix2 p q) = ix2 p q := same_index _ (fun y a => by match a with | ⟨0, _⟩ => rfl | ⟨1, _⟩ => rfl) p q
  unfold Value.E8
  rw [e0, e1, e2, e3, e4, e5, e6, e7, e8, e9, e10, pay11_at, pay12_at, pay6_at, pay7_at, pay5_at, pay10_at]
  rfl

/-! ## The two output tiles over the step's operands -/

/-- Gate `g`'s pre-activation on a tile: row `p` of the input tile against column `q` of the gate's transposed input
    matrix, the same for the hidden state, then the gate's two biases at `q`. -/
def tilePre (x h : S128x1024.Idx → EReal) (WiT WhT : S4x1024x1024.Idx → EReal) (bi bh : S4x1024.Idx → EReal)
    (g : Fin 4) (p : Fin 128) (q : Fin 1024) : EReal :=
  ((∑ k : Fin 1024, x (ix2 p k) * WiT (ix3 g k q)) + (∑ k : Fin 1024, h (ix2 p k) * WhT (ix3 g k q)))
    + (bi (ix2 g q) + bh (ix2 g q))

theorem origin_zero : (![0, 0] : Fin 2 → Nat) = fun _ => 0 := funext fun a => by fin_cases a <;> rfl

/-- The pieces loaded for gate `g` are the whole tiles, slab `g` of each weight stack and row `g` of each bias stack,
    so the gate's sums over the pieces are its pre-activation on the tile. -/
theorem pieceGate_of_loads (x0 x1 : Vec Ideal S128x1024 .f32) (x3 x4 : Vec Ideal S4x1024x1024 .bf16) (x5 x6 : Vec Ideal S4x1024 .f32)
    (g : Fin 4) (n : Nat) (hn : n = g.val)
    (inbW : ∀ a, (![n, 0, 0] : Fin 3 → Nat) a + S1x1024x1024.size a ≤ S4x1024x1024.size a)
    (inbB : ∀ a, (![n, 0] : Fin 2 → Nat) a + S1x1024.size a ≤ S4x1024.size a) (p : Fin 128) (q : Fin 1024) :
    pieceGate (View.ld x0 r0_0) (View.ld x1 r0_0) (View.ld x3 (Rect.unit (s := S4x1024x1024) ![n, 0, 0] S1x1024x1024.size inbW)) (View.ld x4 (Rect.unit (s := S4x1024x1024) ![n, 0, 0] S1x1024x1024.size inbW))
      (View.ld x5 (Rect.unit (s := S4x1024) ![n, 0] S1x1024.size inbB)) (View.ld x6 (Rect.unit (s := S4x1024) ![n, 0] S1x1024.size inbB)) p q
      = tilePre x0 x1 x3 x4 x5 x6 g p q := by
  subst hn
  unfold pieceGate tilePre
  rw [View.ld_unit_zero (S := S128x1024) origin_zero, View.ld_unit_zero (S := S128x1024) origin_zero]
  have slab : ∀ k : Fin 1024, (Rect.unit (s := S4x1024x1024) ![g.val, 0, 0] S1x1024x1024.size inbW).idx (ix3 (0 : Fin 1) k q) = ix3 g k q :=
    fun k => funext fun a => Fin.ext (by
      match a with
      | ⟨0, _⟩ => show g.val + 1 * 0 = g.val; omega
      | ⟨1, _⟩ => show 0 + 1 * k.val = k.val; omega
      | ⟨2, _⟩ => show 0 + 1 * q.val = q.val; omega)
  have row : (Rect.unit (s := S4x1024) ![g.val, 0] S1x1024.size inbB).idx (ix2 (0 : Fin 1) q) = ix2 g q :=
    funext fun a => Fin.ext (by
      match a with
      | ⟨0, _⟩ => show g.val + 1 * 0 = g.val; omega
      | ⟨1, _⟩ => show 0 + 1 * q.val = q.val; omega)
  simp only [View.ld, slab, row]

/-- WHAT ONE STEP LEAVES IN THE CELL-STATE TILE at row `p`, column `q`. -/
theorem cell_tile_at (x0 x1 x2 : Vec Ideal S128x1024 .f32) (x3 x4 : Vec Ideal S4x1024x1024 .bf16) (x5 x6 : Vec Ideal S4x1024 .f32)
    (p : Fin 128) (q : Fin 1024) :
    out0_7 x0 x1 x2 x3 x4 x5 x6 (ix2 p q)
      = Ideal.logistic (tilePre x0 x1 x3 x4 x5 x6 1 p q) * x2 (ix2 p q)
        + Ideal.logistic (tilePre x0 x1 x3 x4 x5 x6 0 p q) * Ideal.tanh (tilePre x0 x1 x3 x4 x5 x6 2 p q) := by
  unfold out0_7
  refine (Value.canon7_eq _ _ _ _ _ _ _ _ _ _ _ _ _ _ _ (ix2 p q)).trans ?_
  rw [E7_at, pieceGate_of_loads x0 x1 x3 x4 x5 x6 1 1 rfl, pieceGate_of_loads x0 x1 x3 x4 x5 x6 0 0 rfl,
    pieceGate_of_loads x0 x1 x3 x4 x5 x6 2 2 rfl, View.ld_unit_zero (S := S128x1024) origin_zero]

/-- WHAT ONE STEP LEAVES IN THE HIDDEN-STATE TILE at row `p`, column `q`. -/
theorem hidden_tile_at (x0 x1 x2 : Vec Ideal S128x1024 .f32) (x3 x4 : Vec Ideal S4x1024x1024 .bf16) (x5 x6 : Vec Ideal S4x1024 .f32)
    (p : Fin 128) (q : Fin 1024) :
    out0_8 x0 x1 x2 x3 x4 x5 x6 (ix2 p q)
      = Ideal.logistic (tilePre x0 x1 x3 x4 x5 x6 3 p q)
        * Ideal.tanh (Ideal.logistic (tilePre x0 x1 x3 x4 x5 x6 1 p q) * x2 (ix2 p q)
          + Ideal.logistic (tilePre x0 x1 x3 x4 x5 x6 0 p q) * Ideal.tanh (tilePre x0 x1 x3 x4 x5 x6 2 p q)) := by
  unfold out0_8
  refine (Value.canon8_eq _ _ _ _ _ _ _ _ _ _ _ _ _ _ _ _ _ _ _ (ix2 p q)).trans ?_
  rw [E8_at, pieceGate_of_loads x0 x1 x3 x4 x5 x6 3 3 rfl, pieceGate_of_loads x0 x1 x3 x4 x5 x6 1 1 rfl,
    pieceGate_of_loads x0 x1 x3 x4 x5 x6 0 0 rfl, pieceGate_of_loads x0 x1 x3 x4 x5 x6 2 2 rfl,
    View.ld_unit_zero (S := S128x1024) origin_zero]

end Cert.KernelIdeal.TileValue

end
-- ==== Proof.KernelBlock.lean ====
/-
  What each grid point writes back, as a block of the LSTM step of the whole arrays.

  The grid runs over 128 tiles of 128 batch rows. At point `t` the three activation windows hold rows
  128·t … 128·t + 127 of their arrays; the two weight windows hold the whole transposed, narrowed stacks, the same
  block at every point; the two bias windows hold the whole bias stacks. The transposition done before the region
  swaps the two unit axes, and the narrowing is the identity over the extended reals, so entry [g,k,q] of a weight
  window is entry [g,q,k] of the argument. Hence a gate's sums on the tile are the specification's pre-activation
  at batch row 128·t + p, and the two tiles the point leaves are the corresponding blocks of the new cell state
  and the new hidden state.
-/
import proofs.«154425_j23974507446845_1_alg».proof.Proof.KernelTile
import Idealize.ShloMosaic.Lib.StableHlo.Run

noncomputable section

namespace Cert.KernelIdeal.BlockValue

open Cert.KernelIdeal Cert.KernelIdeal.Gen Cert.KernelIdeal.TileValue Cert.LstmStep
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Where the windows' blocks lie -/

/-- The five windows that move with the batch tile sit at block row `t`, block column 0 (decided over the grid). -/
theorem batch_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The four resident windows sit at block zero at every point (decided over the grid). -/
theorem resident_blocks : ∀ t : Fin cfg0.N,
    win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 128 := t.isLt.trans_eq (show cfg0.N = 128 from N_0)

/-! ## The blocks a point is handed, named at their literal types -/

abbrev xT (c : Dev nD) (t : Fin cfg0.N) : S128x1024.Idx → EReal := iblk m c 0 t
abbrev hT (c : Dev nD) (t : Fin cfg0.N) : S128x1024.Idx → EReal := iblk m c 1 t
abbrev cT (c : Dev nD) (t : Fin cfg0.N) : S128x1024.Idx → EReal := iblk m c 2 t
abbrev WiT (c : Dev nD) (t : Fin cfg0.N) : S4x1024x1024.Idx → EReal := iblk m c 3 t
abbrev WhT (c : Dev nD) (t : Fin cfg0.N) : S4x1024x1024.Idx → EReal := iblk m c 4 t
abbrev biT (c : Dev nD) (t : Fin cfg0.N) : S4x1024.Idx → EReal := iblk m c 5 t
abbrev bhT (c : Dev nD) (t : Fin cfg0.N) : S4x1024.Idx → EReal := iblk m c 6 t

/-- Row `p` of the input tile at grid point `t` is row `128·t + p` of the input array. -/
theorem xT_at (c : Dev nD) (t : Fin cfg0.N) (p : Fin 128) (k : Fin 1024) (b : Fin 16384) (hb : b.val = t.val * 128 + p.val) :
    xT m c t (ix2 p k) = m ((c : Thread nD τ).loc main_arg0) (ix2 b k) := by
  have e0 : win0_0.index t (0 : Fin 2) = t.val := (batch_blocks t).1
  have e1 : win0_0.index t (1 : Fin 2) = 0 := (batch_blocks t).2.1
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = b.val; rw [e0, hb]; omega
  | ⟨1, _⟩ => show win0_0.index t (1 : Fin 2) * 1024 + 1 * k.val = k.val; rw [e1]; omega

/-- Row `p` of the hidden-state tile at grid point `t` is row `128·t + p` of the hidden-state array. -/
theorem hT_at (c : Dev nD) (t : Fin cfg0.N) (p : Fin 128) (k : Fin 1024) (b : Fin 16384) (hb : b.val = t.val * 128 + p.val) :
    hT m c t (ix2 p k) = m ((c : Thread nD τ).loc main_arg1) (ix2 b k) := by
  have e0 : win0_1.index t (0 : Fin 2) = t.val := (batch_blocks t).2.2.1
  have e1 : win0_1.index t (1 : Fin 2) = 0 := (batch_blocks t).2.2.2.1
  show V m c main_arg1 (((cfg0.win 1).blk t).view.emb (ix2 p k)) = _
  rw [V_main_arg1]
  refine congrArg _ (funext fun a => Fin.ext ?_)
  match a with
  | ⟨0, _⟩ => show win0_1.index t (0 : Fin 2) * 128 + 1 * p.val = b.val; rw [e0, hb]; omega
  | ⟨1, _⟩ => show win0_1.index t (1 : Fin 2) * 1024 + 1 * k.val = k.val; rw [e1]; omega

/-- Row `p` of the cell-state tile at grid point `t` is row `128·t + p` of the cell-state array. -/
theorem cT_at (c : Dev nD) (t : Fin cfg0.N) (p : Fin 128) (k : Fin 1024) (b : Fin 16384) (hb : b.val = t.val * 128 + p.val) :
    cT m c t (ix2 p k) = m ((c : Thread nD τ).loc main_arg2) (ix2 b k) := by
  have e0 : win0_2.index t (0 : Fin 2) = t.val := (batch_blocks t).2.2.2.2.1
  have e1 : win0_2.index t (1 : Fin 2) = 0 := (batch_blocks t).2.2.2.2.2.1
  show V m c main_arg2 (((cfg0.win 2).blk t).view.emb (ix2 p k)) = _
  rw [V_main_arg2]
  refine congrArg _ (funext fun a => Fin.ext ?_)
  match a with
  | ⟨0, _⟩ => show win0_2.index t (0 : Fin 2) * 128 + 1 * p.val = b.val; rw [e0, hb]; omega
  | ⟨1, _⟩ => show win0_2.index t (1 : Fin 2) * 1024 + 1 * k.val = k.val; rw [e1]; omega

/-- Before the region the input-weight stack has its two unit axes swapped and is narrowed, which over the extended
    reals is the identity: entry [g,k,q] of what the region finds is entry [g,q,k] of the argument. -/
theorem WiT_found (c : Dev nD) (g : Fin 4) (k q : Fin 1024) :
    (V m c main_v1 : S4x1024x1024.Idx → EReal) (ix3 g k q) = m ((c : Thread nD τ).loc main_arg3) (ix3 g q k) := by
  have e : (V m c main_v1 : S4x1024x1024.Idx → EReal)
      = truncf (F := Ideal) .bf16 (transpose S4x1024x1024 [0, 2, 1] (m ((c : Thread nD τ).loc main_arg3) : S4x1024x1024.Idx → EReal)
          transposes_S4x1024x1024_S4x1024x1024_0_2_1) bitsLt_bf16_f32 := by
    dsimp only [Gen.V, Gen.hostOps0]; after_results
  rw [e]
  exact transpose_apply [0, 2, 1] (m ((c : Thread nD τ).loc main_arg3) : S4x1024x1024.Idx → EReal)
    transposes_S4x1024x1024_S4x1024x1024_0_2_1 (ix3 g k q) (ix3 g q k)
    (fun b => by match b with | ⟨0, _⟩ => rfl | ⟨1, _⟩ => rfl | ⟨2, _⟩ => rfl)

/-- The input-weight window holds that whole stack at every point. -/
theorem WiT_at (c : Dev nD) (t : Fin cfg0.N) (g : Fin 4) (k q : Fin 1024) :
    WiT m c t (ix3 g k q) = m ((c : Thread nD τ).loc main_arg3) (ix3 g q k) := by
  have e0 : win0_3.index t (0 : Fin 3) = 0 := (resident_blocks t).1
  have e1 : win0_3.index t (1 : Fin 3) = 0 := (resident_blocks t).2.1
  have e2 : win0_3.index t (2 : Fin 3) = 0 := (resident_blocks t).2.2.1
  have ei : ((cfg0.win 3).blk t).view.emb (ix3 g k q) = ix3 g k q := funext fun a => Fin.ext (by
    match a with
    | ⟨0, _⟩ => show win0_3.index t (0 : Fin 3) * 4 + 1 * g.val = g.val; rw [e0]; omega
    | ⟨1, _⟩ => show win0_3.index t (1 : Fin 3) * 1024 + 1 * k.val = k.val; rw [e1]; omega
    | ⟨2, _⟩ => show win0_3.index t (2 : Fin 3) * 1024 + 1 * q.val = q.val; rw [e2]; omega)
  show V m c main_v1 (((cfg0.win 3).blk t).view.emb (ix3 g k q)) = _
  rw [ei]
  exact WiT_found m c g k q

/-- Before the region the hidden-weight stack has its two unit axes swapped and is narrowed, which over the extended
    reals is the identity: entry [g,k,q] of what the region finds is entry [g,q,k] of the argument. -/
theorem WhT_found (c : Dev nD) (g : Fin 4) (k q : Fin 1024) :
    (V m c main_v3 : S4x1024x1024.Idx → EReal) (ix3 g k q) = m ((c : Thread nD τ).loc main_arg4) (ix3 g q k) := by
  have e : (V m c main_v3 : S4x1024x1024.Idx → EReal)
      = truncf (F := Ideal) .bf16 (transpose S4x1024x1024 [0, 2, 1] (m ((c : Thread nD τ).loc main_arg4) : S4x1024x1024.Idx → EReal)
          transposes_S4x1024x1024_S4x1024x1024_0_2_1) bitsLt_bf16_f32 := by
    dsimp only [Gen.V, Gen.hostOps0]; after_results
  rw [e]
  exact transpose_apply [0, 2, 1] (m ((c : Thread nD τ).loc main_arg4) : S4x1024x1024.Idx → EReal)
    transposes_S4x1024x1024_S4x1024x1024_0_2_1 (ix3 g k q) (ix3 g q k)
    (fun b => by match b with | ⟨0, _⟩ => rfl | ⟨1, _⟩ => rfl | ⟨2, _⟩ => rfl)

/-- The hidden-weight window holds that whole stack at every point. -/
theorem WhT_at (c : Dev nD) (t : Fin cfg0.N) (g : Fin 4) (k q : Fin 1024) :
    WhT m c t (ix3 g k q) = m ((c : Thread nD τ).loc main_arg4) (ix3 g q k) := by
  have e0 : win0_4.index t (0 : Fin 3) = 0 := (resident_blocks t).2.2.2.1
  have e1 : win0_4.index t (1 : Fin 3) = 0 := (resident_blocks t).2.2.2.2.1
  have e2 : win0_4.index t (2 : Fin 3) = 0 := (resident_blocks t).2.2.2.2.2.1
  have ei : ((cfg0.win 4).blk t).view.emb (ix3 g k q) = ix3 g k q := funext fun a => Fin.ext (by
    match a with
    | ⟨0, _⟩ => show win0_4.index t (0 : Fin 3) * 4 + 1 * g.val = g.val; rw [e0]; omega
    | ⟨1, _⟩ => show win0_4.index t (1 : Fin 3) * 1024 + 1 * k.val = k.val; rw [e1]; omega
    | ⟨2, _⟩ => show win0_4.index t (2 : Fin 3) * 1024 + 1 * q.val = q.val; rw [e2]; omega)
  show V m c main_v3 (((cfg0.win 4).blk t).view.emb (ix3 g k q)) = _
  rw [ei]
  exact WhT_found m c g k q

/-- The input-bias window holds the whole bias stack at every point. -/
theorem biT_at (c : Dev nD) (t : Fin cfg0.N) (g : Fin 4) (q : Fin 1024) :
    biT m c t (ix2 g q) = m ((c : Thread nD τ).loc main_arg5) (ix2 g q) := by
  have e0 : win0_5.index t (0 : Fin 2) = 0 := (resident_blocks t).2.2.2.2.2.2.1
  have e1 : win0_5.index t (1 : Fin 2) = 0 := (resident_blocks t).2.2.2.2.2.2.2.1
  show V m c main_arg5 (((cfg0.win 5).blk t).view.emb (ix2 g q)) = _
  rw [V_main_arg5]
  refine congrArg _ (funext fun a => Fin.ext ?_)
  match a with
  | ⟨0, _⟩ => show win0_5.index t (0 : Fin 2) * 4 + 1 * g.val = g.val; rw [e0]; omega
  | ⟨1, _⟩ => show win0_5.index t (1 : Fin 2) * 1024 + 1 * q.val = q.val; rw [e1]; omega

/-- The hidden-bias window holds the whole bias stack at every point. -/
theorem bhT_at (c : Dev nD) (t : Fin cfg0.N) (g : Fin 4) (q : Fin 1024) :
    bhT m c t (ix2 g q) = m ((c : Thread nD τ).loc main_arg6) (ix2 g q) := by
  have e0 : win0_6.index t (0 : Fin 2) = 0 := (resident_blocks t).2.2.2.2.2.2.2.2.1
  have e1 : win0_6.index t (1 : Fin 2) = 0 := (resident_blocks t).2.2.2.2.2.2.2.2.2
  show V m c main_arg6 (((cfg0.win 6).blk t).view.emb (ix2 g q)) = _
  rw [V_main_arg6]
  refine congrArg _ (funext fun a => Fin.ext ?_)
  match a with
  | ⟨0, _⟩ => show win0_6.index t (0 : Fin 2) * 4 + 1 * g.val = g.val; rw [e0]; omega
  | ⟨1, _⟩ => show win0_6.index t (1 : Fin 2) * 1024 + 1 * q.val = q.val; rw [e1]; omega

/-! ## One point's two tiles as blocks of the step -/

/-- A gate's sums on the tile at point `t`, row `p`, are its pre-activation at batch row `128·t + p`. -/
theorem gate_on_tile (c : Dev nD) (t : Fin cfg0.N) (g : Fin 4) (p : Fin 128) (q : Fin 1024) (b : Fin 16384)
    (hb : b.val = t.val * 128 + p.val) :
    tilePre (xT m c t) (hT m c t) (WiT m c t) (WhT m c t) (biT m c t) (bhT m c t) g p q = pre (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) g b q := by
  unfold tilePre pre rowDot
  refine congrArg₂ (· + ·) (congrArg₂ (· + ·) (Finset.sum_congr rfl fun k _ => ?_) (Finset.sum_congr rfl fun k _ => ?_))
    (congrArg₂ (· + ·) (biT_at m c t g q) (bhT_at m c t g q))
  · rw [xT_at m c t p k b hb, WiT_at m c t g k q]
  · rw [hT_at m c t p k b hb, WhT_at m c t g k q]

/-- The cell-state tile the point leaves, at row `p`, is the new cell state at batch row `128·t + p`. -/
theorem cell_point (c : Dev nD) (t : Fin cfg0.N) (p : Fin 128) (q : Fin 1024) (b : Fin 16384) (hb : b.val = t.val * 128 + p.val) :
    out0_7 (F := Ideal) (xT m c t) (hT m c t) (cT m c t) (WiT m c t) (WhT m c t) (biT m c t) (bhT m c t) (ix2 p q) = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 b q) := by
  refine (cell_tile_at (xT m c t) (hT m c t) (cT m c t) (WiT m c t) (WhT m c t) (biT m c t) (bhT m c t) p q).trans ?_
  rw [gate_on_tile m c t 1 p q b hb, gate_on_tile m c t 0 p q b hb, gate_on_tile m c t 2 p q b hb, cT_at m c t p q b hb]
  rfl

/-- The hidden-state tile the point leaves, at row `p`, is the new hidden state at batch row `128·t + p`. -/
theorem hidden_point (c : Dev nD) (t : Fin cfg0.N) (p : Fin 128) (q : Fin 1024) (b : Fin 16384) (hb : b.val = t.val * 128 + p.val) :
    out0_8 (F := Ideal) (xT m c t) (hT m c t) (cT m c t) (WiT m c t) (WhT m c t) (biT m c t) (bhT m c t) (ix2 p q) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 b q) := by
  refine (hidden_tile_at (xT m c t) (hT m c t) (cT m c t) (WiT m c t) (WhT m c t) (biT m c t) (bhT m c t) p q).trans ?_
  rw [gate_on_tile m c t 3 p q b hb, gate_on_tile m c t 1 p q b hb, gate_on_tile m c t 0 p q b hb, gate_on_tile m c t 2 p q b hb,
    cT_at m c t p q b hb]
  rfl

/-- WHAT POINT `t` WRITES BACK to the new cell state array is block `t` of the new cell state of the whole arrays. -/
theorem cell_flushed (c : Dev nD) (t : Fin cfg0.N) :
    (dats m 0 c).flushed 7 t = ((cfg0.win 7).blk t).view.read (Elt Ideal) (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  funext j
  have hj0 : (j 0).val < 128 := (j 0).isLt
  have hj1 : (j 1).val < 1024 := (j 1).isLt
  have ht : t.val < 128 := point_lt t
  have e0 : win0_7.index t (0 : Fin 2) = t.val := (batch_blocks t).2.2.2.2.2.2.1
  have e1 : win0_7.index t (1 : Fin 2) = 0 := (batch_blocks t).2.2.2.2.2.2.2.1
  have inTile : (cfg0.win 7).xinj (grid0.coords t) j = ix2 (⟨(j 0).val, hj0⟩ : Fin 128) (⟨(j 1).val, hj1⟩ : Fin 1024) :=
    funext fun a => Fin.ext (by match a with | ⟨0, _⟩ => rfl | ⟨1, _⟩ => rfl)
  have inArray : ((cfg0.win 7).blk t).view.emb j
      = ix2 (⟨t.val * 128 + (j 0).val, by omega⟩ : Fin 16384) (⟨(j 1).val, hj1⟩ : Fin 1024) :=
    funext fun a => Fin.ext (by
      match a with
      | ⟨0, _⟩ => show win0_7.index t (0 : Fin 2) * 128 + 1 * (j 0).val = t.val * 128 + (j 0).val; rw [e0]; omega
      | ⟨1, _⟩ => show win0_7.index t (1 : Fin 2) * 1024 + 1 * (j 1).val = (j 1).val; rw [e1]; omega)
  show out0_7 (F := Ideal) (xT m c t) (hT m c t) (cT m c t) (WiT m c t) (WhT m c t) (biT m c t) (bhT m c t) ((cfg0.win 7).xinj (grid0.coords t) j)
    = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb j)
  rw [inTile, inArray]
  exact cell_point m c t _ _ _ rfl

/-- WHAT POINT `t` WRITES BACK to the new hidden state array is block `t` of the new hidden state of the whole arrays. -/
theorem hidden_flushed (c : Dev nD) (t : Fin cfg0.N) :
    (dats m 0 c).flushed 8 t = ((cfg0.win 8).blk t).view.read (Elt Ideal) (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  funext j
  have hj0 : (j 0).val < 128 := (j 0).isLt
  have hj1 : (j 1).val < 1024 := (j 1).isLt
  have ht : t.val < 128 := point_lt t
  have e0 : win0_8.index t (0 : Fin 2) = t.val := (batch_blocks t).2.2.2.2.2.2.2.2.1
  have e1 : win0_8.index t (1 : Fin 2) = 0 := (batch_blocks t).2.2.2.2.2.2.2.2.2
  have inTile : (cfg0.win 8).xinj (grid0.coords t) j = ix2 (⟨(j 0).val, hj0⟩ : Fin 128) (⟨(j 1).val, hj1⟩ : Fin 1024) :=
    funext fun a => Fin.ext (by match a with | ⟨0, _⟩ => rfl | ⟨1, _⟩ => rfl)
  have inArray : ((cfg0.win 8).blk t).view.emb j
      = ix2 (⟨t.val * 128 + (j 0).val, by omega⟩ : Fin 16384) (⟨(j 1).val, hj1⟩ : Fin 1024) :=
    funext fun a => Fin.ext (by
      match a with
      | ⟨0, _⟩ => show win0_8.index t (0 : Fin 2) * 128 + 1 * (j 0).val = t.val * 128 + (j 0).val; rw [e0]; omega
      | ⟨1, _⟩ => show win0_8.index t (1 : Fin 2) * 1024 + 1 * (j 1).val = (j 1).val; rw [e1]; omega)
  show out0_8 (F := Ideal) (xT m c t) (hT m c t) (cT m c t) (WiT m c t) (WhT m c t) (biT m c t) (bhT m c t) ((cfg0.win 8).xinj (grid0.coords t) j)
    = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb j)
  rw [inTile, inArray]
  exact hidden_point m c t _ _ _ rfl

end Cert.KernelIdeal.BlockValue

end
-- ==== Proof.KernelArray.lean ====
/-
  From blocks to whole arrays. Each of the 128 grid points writes back one block of 128 batch rows to each result
  array, and what it writes is that block of the new cell state (first result) or the new hidden state (second
  result) of the whole argument arrays. The blocks of the 128 points tile each result array — batch row r lies in
  the block of point r / 128 — so after the run each result array IS the corresponding function of the arguments,
  and the arguments are as they were.
-/
import proofs.«154425_j23974507446845_1_alg».proof.Proof.KernelBlock

noncomputable section

namespace Cert.KernelIdeal.ArrayValue

open Cert.KernelIdeal Cert.KernelIdeal.Gen Cert.KernelIdeal.BlockValue Cert.LstmStep
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An index of the result array lies in point `t`'s block of output window 7 iff, axis by axis, it lies in the block's range. -/
theorem in_block7 (t : Fin cfg0.N) (i : S16384x1024.Idx) :
    i ∈ ((cfg0.win 7).blk t).view.set ↔ ∀ a : Fin 2, win0_7.index t a * S128x1024.size a ≤ (i a).val
      ∧ (i a).val < win0_7.index t a * S128x1024.size a + S128x1024.size a := by
  show i ∈ ((View.whole main_v4_0).slice (win0_7.rect t)).set ↔ _
  rw [View.set_slice_whole, Rect.mem_set_unit]
  exact Iff.rfl

/-- Batch row `r` lies in the block of point `r / 128`: the 128 blocks tile the array. -/
theorem tiled7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 128 := N_0
  have ht : (i 0).val / 128 < cfg0.N := by rw [hN]; omega
  have e0 : win0_7.index ⟨(i 0).val / 128, ht⟩ (0 : Fin 2) = (i 0).val / 128 := (batch_blocks ⟨(i 0).val / 128, ht⟩).2.2.2.2.2.2.1
  have e1 : win0_7.index ⟨(i 0).val / 128, ht⟩ (1 : Fin 2) = 0 := (batch_blocks ⟨(i 0).val / 128, ht⟩).2.2.2.2.2.2.2.1
  refine ⟨⟨(i 0).val / 128, ht⟩, flush0_7 _, ?_⟩
  rw [in_block7]
  intro a
  match a with
  | ⟨0, _⟩ =>
    show win0_7.index ⟨(i 0).val / 128, ht⟩ (0 : Fin 2) * 128 ≤ (i 0).val
      ∧ (i 0).val < win0_7.index ⟨(i 0).val / 128, ht⟩ (0 : Fin 2) * 128 + 128
    rw [e0]; omega
  | ⟨1, _⟩ =>
    show win0_7.index ⟨(i 0).val / 128, ht⟩ (1 : Fin 2) * 1024 ≤ (i 1).val
      ∧ (i 1).val < win0_7.index ⟨(i 0).val / 128, ht⟩ (1 : Fin 2) * 1024 + 1024
    rw [e1]; omega

/-- An index of the result array lies in point `t`'s block of output window 8 iff, axis by axis, it lies in the block's range. -/
theorem in_block8 (t : Fin cfg0.N) (i : S16384x1024.Idx) :
    i ∈ ((cfg0.win 8).blk t).view.set ↔ ∀ a : Fin 2, win0_8.index t a * S128x1024.size a ≤ (i a).val
      ∧ (i a).val < win0_8.index t a * S128x1024.size a + S128x1024.size a := by
  show i ∈ ((View.whole main_v4_1).slice (win0_8.rect t)).set ↔ _
  rw [View.set_slice_whole, Rect.mem_set_unit]
  exact Iff.rfl

/-- Batch row `r` lies in the block of point `r / 128`: the 128 blocks tile the array. -/
theorem tiled8 (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 128 := N_0
  have ht : (i 0).val / 128 < cfg0.N := by rw [hN]; omega
  have e0 : win0_8.index ⟨(i 0).val / 128, ht⟩ (0 : Fin 2) = (i 0).val / 128 := (batch_blocks ⟨(i 0).val / 128, ht⟩).2.2.2.2.2.2.2.2.1
  have e1 : win0_8.index ⟨(i 0).val / 128, ht⟩ (1 : Fin 2) = 0 := (batch_blocks ⟨(i 0).val / 128, ht⟩).2.2.2.2.2.2.2.2.2
  refine ⟨⟨(i 0).val / 128, ht⟩, flush0_8 _, ?_⟩
  rw [in_block8]
  intro a
  match a with
  | ⟨0, _⟩ =>
    show win0_8.index ⟨(i 0).val / 128, ht⟩ (0 : Fin 2) * 128 ≤ (i 0).val
      ∧ (i 0).val < win0_8.index ⟨(i 0).val / 128, ht⟩ (0 : Fin 2) * 128 + 128
    rw [e0]; omega
  | ⟨1, _⟩ =>
    show win0_8.index ⟨(i 0).val / 128, ht⟩ (1 : Fin 2) * 1024 ≤ (i 1).val
      ∧ (i 1).val < win0_8.index ⟨(i 0).val / 128, ht⟩ (1 : Fin 2) * 1024 + 1024
    rw [e1]; omega

/-- After the run the first result array is the new cell state of the arguments. -/
theorem cell_array (c : Dev nD) : (dats m 0 c).arrAt 7 cfg0.N = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => cell_flushed m c t) tiled7

/-- After the run the second result array is the new hidden state of the arguments. -/
theorem hidden_array (c : Dev nD) : (dats m 0 c).arrAt 8 cfg0.N = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => hidden_flushed m c t) tiled8

/-- Every weakly fair execution of the kernel's program terminates without a fault, the two results at the new cell
    state and the new hidden state of the argument arrays, the arguments unchanged. -/
theorem run : θ_run defs (onTc (τ := τ) (main (F := Ideal))) ⟨m, fun _ => 0, ρ⟩ fun r => ∀ c : Dev nD,
      r.2.mem ((c : Thread nD τ).loc main_v4_0) = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_1) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (cell_array m c), (h c).2.1.trans (hidden_array m c), (h c).2.2⟩)
    (Value.run_blocks m ρ)

end Cert.KernelIdeal.ArrayValue

end
-- ==== Proof.lean ====
/-
  The kernel is one step of an LSTM cell: from the input, the previous hidden state and the previous cell state
  (each 16384 × 1024), two stacks of four 1024 × 1024 weight matrices and two stacks of four bias rows, it returns
  the new cell state and the new hidden state. It runs over 128 tiles of 128 batch rows; on a tile it forms each
  gate's pre-activation as (tile of input · Wiᵀ[g] + tile of hidden state · Whᵀ[g]) + (bi[g] + bh[g]), the weights
  transposed and narrowed before the region, and applies the logistic function (gates 0, 1, 3) and the hyperbolic
  tangent (gate 2, and the new cell state). The reference forms the same four sums as two batched products, each with
  its own bias, added; slices the gate axis; and spells the logistic function as 1 / (1 + e^(−z)).

  Over the extended reals the two are one function of the arguments (Proof/LstmStep.lean): the narrowing is the
  identity, a product into a zero accumulator is the plain sum, (A + p) + (B + q) = (A + B) + (p + q) by
  commutativity and associativity alone — so the precondition that the inputs are finite is never opened —, and the
  spelled quotient is the logistic function. Proof/RefStep.lean reads the reference's run stage by stage into that
  function; Proof/KernelTile.lean, Proof/KernelBlock.lean and Proof/KernelArray.lean read the kernel's run into it
  tile by tile, block by block and then as whole arrays. The three frames are the generated ones (the reference's
  is its run with the results dropped), and the idealization rewrote nothing, so there is nothing to preserve.
-/
import proofs.«154425_j23974507446845_1_alg».proof.Defs
import proofs.«154425_j23974507446845_1_alg».proof.Proof.Gen.Kernel
import proofs.«154425_j23974507446845_1_alg».proof.Proof.Gen.Kernel.Skeleton
import proofs.«154425_j23974507446845_1_alg».proof.Proof.Gen.Kernel.Launch
import proofs.«154425_j23974507446845_1_alg».proof.Proof.Gen.Kernel.Points
import proofs.«154425_j23974507446845_1_alg».proof.Proof.Gen.Kernel.Frame
import proofs.«154425_j23974507446845_1_alg».proof.Proof.Gen.KernelIdeal
import proofs.«154425_j23974507446845_1_alg».proof.Proof.Gen.KernelIdeal.Skeleton
import proofs.«154425_j23974507446845_1_alg».proof.Proof.Gen.KernelIdeal.Launch
import proofs.«154425_j23974507446845_1_alg».proof.Proof.Gen.KernelIdeal.Points
import proofs.«154425_j23974507446845_1_alg».proof.Proof.Gen.KernelIdeal.Frame
import proofs.«154425_j23974507446845_1_alg».proof.Proof.Gen.ReferenceIdeal
import proofs.«154425_j23974507446845_1_alg».proof.Proof.Gen.Pre_finite_inputs
import proofs.«154425_j23974507446845_1_alg».proof.Proof.Gen.KernelIdeal.Value
import proofs.«154425_j23974507446845_1_alg».proof.Proof.Gen.ReferenceIdeal.Run
import proofs.«154425_j23974507446845_1_alg».proof.Proof.Gen.ReferenceIdeal.Read
import proofs.«154425_j23974507446845_1_alg».proof.Proof.LstmStep
import proofs.«154425_j23974507446845_1_alg».proof.Proof.RefStep
import proofs.«154425_j23974507446845_1_alg».proof.Proof.KernelArray
import Idealize.ShloMosaic.Adequacy
import Idealize.ShloMosaic.Init

noncomputable section

namespace Cert.Proof

open Idealize.ShloMosaic Idealize.SL.Sem

/-- The kernel's program as printed runs, faults nowhere and leaves its arguments as they were. -/
theorem frame_kernel : Cert.frame_Kernel := fun m ρ _ => Cert.Kernel.Gen.frame m ρ

/-- The same of the kernel's program read over the extended reals. -/
theorem frame_kernel_ideal : Cert.frame_KernelIdeal := fun m ρ _ => Cert.KernelIdeal.Gen.frame m ρ

/-- The reference's run with its two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the seven arguments both programs end with the new cell state and the new hidden
    state of those arguments: the kernel's run read as whole arrays, the reference's read stage by stage. -/
theorem same_step : Cert.algebraic_KernelIdeal_ReferenceIdeal := by
  intro m ρ m' ρ' _ hagree
  refine ⟨fun c => Cert.LstmStep.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.LstmStep.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.ArrayValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v38_eq, Cert.ReferenceIdeal.StepValue.cell_eq,
      (hagree c).1, (hagree c).2.1, (hagree c).2.2.1, (hagree c).2.2.2.1, (hagree c).2.2.2.2.1, (hagree c).2.2.2.2.2.1,
      (hagree c).2.2.2.2.2.2]
  · rw [(h c).2.1, Cert.ReferenceIdeal.Read.val_main_v40_eq, Cert.ReferenceIdeal.StepValue.hidden_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, same_step⟩

end Cert.Proof

end
